-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S8x1024 : Shape := ⟨2, ![8, 1024]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S8x1024x768 .f32) (main_arg1 : IVec S8x1024 32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_c_0 : IVec S_ 32 := constantI S_ 32 0#32
  let main_v4 : IVec S8x1024 32 := broadcastInDim S8x1024 ![] bcast_S_S8x1024 main_c_0
  let main_v5 : IVec S8x1024 1 := cmpi .eq main_arg1 main_v4
  let main_c_1 : IVec S_ 32 := constantI S_ 32 1#32
  let main_v6 : IVec S8x1024 32 := broadcastInDim S8x1024 ![] bcast_S_S8x1024 main_c_1
  let main_v7 : IVec S8x1024 1 := cmpi .eq main_arg1 main_v6
  let main_v8 : IVec S8x1024 1 := ori main_v5 main_v7
  let main_c_2 : IVec S_ 1 := constantI S_ 1 1#1
  let main_v9 : IVec S_ 1 := (fun x v => Host.reduce IntOp.andi x v reducesTo_S8x1024_S_d0_1 h_S_) main_v8 main_c_2
  let main_v10 : IVec S_ 1 := andi main_v3 main_v9
  main_v10
-- ==== Kernel.lean ====
abbrev S8x1024x768 : Shape := ⟨3, ![8, 1024, 768]⟩
abbrev S8x1024 : Shape := ⟨2, ![8, 1024]⟩
abbrev S8x1x1024 : Shape := ⟨3, ![8, 1, 1024]⟩
abbrev S1x1024x768 : Shape := ⟨3, ![1, 1024, 768]⟩
abbrev S1x1x1024 : Shape := ⟨3, ![1, 1, 1024]⟩
abbrev S1024x768 : Shape := ⟨2, ![1024, 768]⟩
abbrev S768x1024 : Shape := ⟨2, ![768, 1024]⟩
abbrev S1024x1 : Shape := ⟨2, ![1024, 1]⟩
abbrev S1x1024 : Shape := ⟨2, ![1, 1024]⟩
abbrev S256x768 : Shape := ⟨2, ![256, 768]⟩
abbrev S256x1024 : Shape := ⟨2, ![256, 1024]⟩
abbrev S256 : Shape := ⟨1, ![256]⟩
abbrev S256x1 : Shape := ⟨2, ![256, 1]⟩
abbrev S1x256x768 : Shape := ⟨3, ![1, 256, 768]⟩

abbrev nBuf : Space → Nat
  | .hbm => 4
  | .vmem => 9
  | .smem => 0
  | _ => 0

abbrev bufTy : (tb : Table) → Fin (tcTables nBuf tb) → BufTy
  | .hbm, ⟨0, _⟩ => ⟨S8x1024x768, .f32⟩
  | .hbm, ⟨1, _⟩ => ⟨S8x1024, .i32⟩
  | .hbm, ⟨2, _⟩ => ⟨S8x1x1024, .i32⟩
  | .hbm, ⟨3, _⟩ => ⟨S8x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S1x1x1024, .i32⟩
  | .local _ .vmem, ⟨3, _⟩ => ⟨S1x1x1024, .i32⟩
  | .local _ .vmem, ⟨4, _⟩ => ⟨S1x1024x768, .f32⟩
  | .local _ .vmem, ⟨5, _⟩ => ⟨S1x1024x768, .f32⟩
  | .local _ .vmem, ⟨6, _⟩ => ⟨S1024x768, .bf16⟩
  | .local _ .vmem, ⟨7, _⟩ => ⟨S768x1024, .bf16⟩
  | .local _ .vmem, ⟨8, _⟩ => ⟨S1024x1, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c256_i32 : BitVec 32 := 256#32
  let v20 : BitVec 32 := Scalar.muli c0_i32 c256_i32
  v20
def k0_off1 (c0_i32 : BitVec 32) : Fin 2 → Nat :=
  let c256_i32 : BitVec 32 := 256#32
  let v20 : BitVec 32 := Scalar.muli c0_i32 c256_i32
  let v21 : BitVec 32 := v20
  let v22 : Index := Scalar.indexCast v21
  let c0_17 : Index := 0#32
  ![v22.toNat, 0]
def k0_off2 (c0_i32 : BitVec 32) : Fin 2 → Nat :=
  let c256_i32 : BitVec 32 := 256#32
  let v20 : BitVec 32 := Scalar.muli c0_i32 c256_i32
  let v21 : BitVec 32 := v20
  let v32 : Index := Scalar.indexCast v21
  let c0_20 : Index := 0#32
  ![v32.toNat, 0]
def k0_off3 (c0_i32 : BitVec 32) : Fin 3 → Nat :=
  let c0_22 : Index := 0#32
  let c256_i32 : BitVec 32 := 256#32
  let v20 : BitVec 32 := Scalar.muli c0_i32 c256_i32
  let v21 : BitVec 32 := v20
  let v39 : Index := Scalar.indexCast v21
  let c0_23 : Index := 0#32
  ![0, v39.toNat, 0]
def k0_mult2 : BitVec 32 :=
  let c1_i32 : BitVec 32 := 1#32
  let c256_i32_24 : BitVec 32 := 256#32
  let v43 : BitVec 32 := Scalar.muli c1_i32 c256_i32_24
  v43
def k0_mult3 : BitVec 32 :=
  let c2_i32 : BitVec 32 := 2#32
  let c256_i32_33 : BitVec 32 := 256#32
  let v66 : BitVec 32 := Scalar.muli c2_i32 c256_i32_33
  v66
def k0_mult4 : BitVec 32 :=
  let c3_i32 : BitVec 32 := 3#32
  let c256_i32_42 : BitVec 32 := 256#32
  let v89 : BitVec 32 := Scalar.muli c3_i32 c256_i32_42
  v89
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S8x1024_S8x1x1024_0_2 : S8x1024.BroadcastsInDim S8x1x1024 (![0, 2] : Fin 2 → Fin S8x1x1024.rank)
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  packedbf16_S1024x768_S1024x768_0_0 : (Rect.unit (s := S1024x768) ![0, 0] S1024x768.size inb_S1024x768_S1024x768_0_0).PackedRows (EltTy.packing .bf16)
  transposes_S1024x768_p1_0_S768x1024 : S1024x768.Transposes [1, 0] S768x1024
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  packedbf16_S768x1024_S768x1024_0_0 : (Rect.unit (s := S768x1024) ![0, 0] S768x1024.size inb_S768x1024_S768x1024_0_0).PackedRows (EltTy.packing .bf16)
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  transposes_S1x1024_p1_0_S1024x1 : S1x1024.Transposes [1, 0] S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S256x768 : 0 < S256x768.numel
  broadcasts_S1x1024_S256x1024 : S1x1024.Broadcasts S256x1024
  reduces_S256x1024_S256 : S256x1024.Reduces [1] S256
  shapeCasts_S256_S256x1 : S256.ShapeCasts S256x1
  h_S256x1 : 0 < S256x1.numel
  broadcasts_S256x1_S256x768 : S256x1.Broadcasts S256x768
  h_S1x256x768 : 0 < S1x256x768.numel
  shapeCasts_S1x256x768_S256x768 : S1x256x768.ShapeCasts S256x768
  shapeCasts_S256x768_S1x256x768 : S256x768.ShapeCasts S1x256x768
  dot_S256x768_S768x1024_S256x1024_1_0_0_1_n_n_wf : DotDims.WF S256x768 S768x1024 S256x1024 [1] [0] [0] [1] [] []
  dot_S256x1024_S1024x768_S256x768_1_0_0_1_n_n_wf : DotDims.WF S256x1024 S1024x768 S256x768 [1] [0] [0] [1] [] []
  hrank0 : 0 < grid0.rank
  k0_mult1_dvd : 256 ∣ k0_mult1.toNat
  k0_off1_inb : ∀ (r : Fin 4), ∀ a, (k0_off1 (BitVec.ofNat 32 r.val)) a + S256x768.size a ≤ S1024x768.size a
  k0_off2_inb : ∀ (r : Fin 4), ∀ a, (k0_off2 (BitVec.ofNat 32 r.val)) a + S256x1.size a ≤ S1024x1.size a
  k0_off3_inb : ∀ (r : Fin 4), ∀ a, (k0_off3 (BitVec.ofNat 32 r.val)) a + S1x256x768.size a ≤ S1x1024x768.size a
  k0_mult2_dvd : 256 ∣ k0_mult2.toNat
  k0_mult3_dvd : 256 ∣ k0_mult3.toNat
  k0_mult4_dvd : 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x1024x768.size a
  hwx0_0 : ∀ i : grid0.Coords, EltTy.bits .f32 = 32 ∨ (Rect.block (s := S8x1024x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S8x1x1024.size a
  hwx0_1 : ∀ i : grid0.Coords, EltTy.bits .i32 = 32 ∨ (Rect.block (s := S8x1x1024) S1x1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x768.size a ≤ S8x1024x768.size a
  hwx0_2 : ∀ i : grid0.Coords, EltTy.bits .f32 = 32 ∨ (Rect.block (s := S8x1024x768) S1x1024x768.size (cc0_transform_2 i) (hinb0_2 i)).WholeWords (EltTy.packing .f32)

variable [Facts₀]

def dot_S256x768_S768x1024_S256x1024_1_0_0_1_n_n : DotDims S256x768 S768x1024 S256x1024 where
  lhsContracting := [1]
  rhsContracting := [0]
  lhsNonContracting := [0]
  rhsNonContracting := [1]
  lhsBatch := []
  rhsBatch := []
  wf := dot_S256x768_S768x1024_S256x1024_1_0_0_1_n_n_wf
def dot_S256x1024_S1024x768_S256x768_1_0_0_1_n_n : DotDims S256x1024 S1024x768 S256x768 where
  lhsContracting := [1]
  rhsContracting := [0]
  lhsNonContracting := [0]
  rhsNonContracting := [1]
  lhsBatch := []
  rhsBatch := []
  wf := dot_S256x1024_S1024x768_S256x768_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1024x768 : Shape := ⟨3, ![8, 1024, 768]⟩
abbrev S8x1024 : Shape := ⟨2, ![8, 1024]⟩
abbrev S8x1024x1024 : Shape := ⟨3, ![8, 1024, 1024]⟩
abbrev S8x1024x1 : Shape := ⟨3, ![8, 1024, 1]⟩
abbrev S8x1x1024 : Shape := ⟨3, ![8, 1, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S8x1024, .i32⟩
  | .hbm, ⟨2, _⟩ => ⟨S8x1024x1024, .f32⟩
  | .hbm, ⟨3, _⟩ => ⟨S8x1024x1024, .f32⟩
  | .hbm, ⟨4, _⟩ => ⟨S8x1024, .f32⟩
  | .hbm, ⟨5, _⟩ => ⟨S8x1024x1, .f32⟩
  | .hbm, ⟨6, _⟩ => ⟨S8x1024x1024, .f32⟩
  | .hbm, ⟨7, _⟩ => ⟨S8x1024x1024, .f32⟩
  | .hbm, ⟨8, _⟩ => ⟨S8x1x1024, .f32⟩
  | .hbm, ⟨9, _⟩ => ⟨S8x1024x1024, .f32⟩
  | .hbm, ⟨10, _⟩ => ⟨S8x1024x1024, .f32⟩
  | .hbm, ⟨11, _⟩ => ⟨S_, .f32⟩
  | .hbm, ⟨12, _⟩ => ⟨S8x1024, .f32⟩
  | .hbm, ⟨13, _⟩ => ⟨S8x1024x1, .f32⟩
  | .hbm, ⟨14, _⟩ => ⟨S_, .f32⟩
  | .hbm, ⟨15, _⟩ => ⟨S8x1024x1, .f32⟩
  | .hbm, ⟨16, _⟩ => ⟨S8x1024x1, .f32⟩
  | .hbm, ⟨17, _⟩ => ⟨S8x1024x1024, .f32⟩
  | .hbm, ⟨18, _⟩ => ⟨S8x1024x1024, .f32⟩
  | .hbm, ⟨19, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  bcast_S8x1024_S8x1x1024_0_2 : S8x1024.BroadcastsInDim S8x1x1024 (![0, 2] : Fin 2 → Fin S8x1x1024.rank)
  bcast_S8x1x1024_S8x1024x1024_0_1_2 : S8x1x1024.BroadcastsInDim S8x1024x1024 (![0, 1, 2] : Fin 3 → Fin S8x1024x1024.rank)
  reducesTo_S8x1024x1024_S8x1024_d2 : S8x1024x1024.ReducesTo [2] S8x1024
  h_S_ : 0 < S_.numel
  bcast_S_S8x1024x1 : S_.BroadcastsInDim S8x1024x1 (![] : Fin 0 → Fin S8x1024x1.rank)
  dot_S8x1024x768_S8x1024x768_S8x1024x1024_2_2_1_1_0_0_wf : DotDims.WF S8x1024x768 S8x1024x768 S8x1024x1024 [2] [2] [1] [1] [0] [0]
  dot_S8x1024x1024_S8x1024x768_S8x1024x768_2_1_1_2_0_0_wf : DotDims.WF S8x1024x1024 S8x1024x768 S8x1024x768 [2] [1] [1] [2] [0] [0]

variable [Facts₀]

def dot_S8x1024x768_S8x1024x768_S8x1024x1024_2_2_1_1_0_0 : DotDims S8x1024x768 S8x1024x768 S8x1024x1024 where
  lhsContracting := [2]
  rhsContracting := [2]
  lhsNonContracting := [1]
  rhsNonContracting := [1]
  lhsBatch := [0]
  rhsBatch := [0]
  wf := dot_S8x1024x768_S8x1024x768_S8x1024x1024_2_2_1_1_0_0_wf
def dot_S8x1024x1024_S8x1024x768_S8x1024x768_2_1_1_2_0_0 : DotDims S8x1024x1024 S8x1024x768 S8x1024x768 where
  lhsContracting := [2]
  rhsContracting := [1]
  lhsNonContracting := [1]
  rhsNonContracting := [2]
  lhsBatch := [0]
  rhsBatch := [0]
  wf := dot_S8x1024x1024_S8x1024x768_S8x1024x768_2_1_1_2_0_0_wf

class Facts : Prop extends Facts₀ where

variable [Facts]
-- ==== Proof.AttnSpec.lean ====
/-
  Masked, unscaled self-attention of one batch, over the extended reals.

  One batch is a matrix `a` of 1024 rows (positions) by 768 columns (features) and a mask `μ` with one entry per
  position. The score of positions `s` and `t` is the inner product of their rows; its weight is `exp (score)`.

  Two arrangements of the masked, renormalized average are written out here.
  * `refRow`: the weight of `(s, t)` is masked by BOTH `μ s` and `μ t`, each masked weight is divided by the row's
    masked total plus `ε`, and the quotients average the rows of `a`.
  * `kerRow`: the weight is masked by the COLUMN entry `μ t` only, the masked weights average the rows of `a`
    un-normalized, and the result is scaled once by `μ s / (column-masked total + ε)`.
  For a mask of zeros and ones and finite entries of `a` they agree (`refRow_eq_kerRow`, proved in the next module):
  where `μ s = 1` the row mask is the factor one on both sides and the division distributes over the finite sum;
  where `μ s = 0` both sides are zero.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The denominator's guard `ε`: the value of the single-precision word both programs carry (the nearest float to 1e-7). -/
abbrev eps : EReal := Ideal.ofBits .f32 0x33D6BF95#32

section batch

variable (a : Fin 1024 → Fin 768 → EReal) (μ : Fin 1024 → EReal)

/-- The score of positions `s` and `t`: the inner product of their feature rows. -/
def score (s t : Fin 1024) : EReal := ∑ k : Fin 768, a s k * a t k

/-- The weight of `(s, t)` masked by the column's entry only. -/
def colW (s t : Fin 1024) : EReal := Ideal.exp (score a s t) * μ t

/-- Row `s`'s column-masked total, guarded by `ε`. -/
def colDen (s : Fin 1024) : EReal := (∑ t : Fin 1024, colW a μ s t) + eps

/-- The column-masked weights average the rows un-normalized; one scale `μ s / total` per row follows. -/
def kerRow (s : Fin 1024) (d : Fin 768) : EReal :=
  (∑ t : Fin 1024, colW a μ s t * a t d) * Ideal.div (μ s) (colDen a μ s)

/-- The weight of `(s, t)` masked by the row's entry and then by the column's. -/
def bothW (s t : Fin 1024) : EReal := Ideal.exp (score a s t) * μ s * μ t

/-- Row `s`'s doubly masked total, guarded by `ε`. -/
def bothDen (s : Fin 1024) : EReal := (∑ t : Fin 1024, bothW a μ s t) + eps

/-- Each doubly masked weight is normalized first; the quotients then average the rows. -/
def refRow (s : Fin 1024) (d : Fin 768) : EReal :=
  ∑ t : Fin 1024, Ideal.div (bothW a μ s t) (bothDen a μ s) * a t d

end batch

/-! ## The whole arrays: eight independent batches -/

/-- The input's shape: batch, position, feature. -/
abbrev SA : Shape := ⟨3, ![8, 1024, 768]⟩
/-- The mask's shape: batch, position. -/
abbrev SM : Shape := ⟨2, ![8, 1024]⟩

/-- Batch `b` of the input as a matrix. -/
def rows (A : SA.Idx → EReal) (b : Fin 8) : Fin 1024 → Fin 768 → EReal := fun s k => A (ix3 b s k)

/-- Batch `b` of the integer mask, each word read as the (signed) integer it is. -/
def maskRow (M : SM.Idx → BitVec 32) (b : Fin 8) : Fin 1024 → EReal :=
  fun t => FloatOps.sitofp (F := Ideal) .f32 (M (ix2 b t))

/-- The result in the column-mask-then-scale arrangement. -/
def attn (A : SA.Idx → EReal) (M : SM.Idx → BitVec 32) : SA.Idx → EReal :=
  fun i => kerRow (rows A (i 0)) (maskRow M (i 0)) (i 1) (i 2)

/-- The result in the mask-both-then-normalize arrangement. -/
def attnRef (A : SA.Idx → EReal) (M : SM.Idx → BitVec 32) : SA.Idx → EReal :=
  fun i => refRow (rows A (i 0)) (maskRow M (i 0)) (i 1) (i 2)

end Cert.Attn

end
-- ==== Proof.AttnLaw.lean ====
/-
  The two arrangements of masked attention agree on a zero-one mask and finite entries.
-/
import proofs.«406808_j67516885893461_3_alg».proof.Proof.AttnSpec

noncomputable section

open scoped BigOperators

namespace Cert.Attn

open Idealize.ShloMosaic

/-- The coercion of a finite sum of reals is the sum of the coercions. -/
private theorem coe_sum_real {ι : Type} (S : Finset ι) (f : ι → ℝ) :
    ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- The guard is a positive real: the word's sign is plus, its exponent field is 103 and its significand
    is 14073749, so it denotes 14073749 / 2^47. -/
private theorem eps_real : ∃ e : ℝ, 0 < e ∧ eps = (e : EReal) := by
  refine ⟨14073749 * (2 ^ 47)⁻¹, by positivity, ?_⟩
  simp [eps, Ideal.ofBits, Ideal.ieee]

/-- The identity over the reals. With weights `x t`, a zero-one row entry `ms`, column entries `m t`, values `v t` and
    a guard `e`: where `ms = 0` both sides vanish, where `ms = 1` the two totals are the same number and the common
    reciprocal factors out of the finite sum. -/
private theorem real_law {ι : Type} [Fintype ι] (x m v : ι → ℝ) (ms e : ℝ) (h01 : ms = 0 ∨ ms = 1) :
    ∑ t, x t * ms * m t * (1 / (∑ u, x u * ms * m u + e)) * v t
      = (∑ t, x t * m t * v t) * (ms * (1 / (∑ u, x u * m u + e))) := by
  rcases h01 with h | h
  · subst h; simp
  · subst h
    simp only [mul_one, one_mul]
    rw [Finset.sum_mul]
    exact Finset.sum_congr rfl fun t _ => by ring

/-- For a mask of zeros and ones and finite features, normalizing the doubly masked weights before averaging is the same
    as averaging the column-masked weights and scaling the row once. -/
theorem refRow_eq_kerRow (a : Fin 1024 → Fin 768 → EReal) (μ : Fin 1024 → EReal)
    (ha : ∀ s k, ∃ r : ℝ, a s k = (r : EReal)) (hμ : ∀ t, μ t = 0 ∨ μ t = 1) (s : Fin 1024) (d : Fin 768) :
    refRow a μ s d = kerRow a μ s d := by
  obtain ⟨e, he, hε⟩ := eps_real
  -- real witnesses: the features, and the mask entries (each zero or one)
  choose A hA using ha
  have hm' : ∀ t, ∃ r : ℝ, (r = 0 ∨ r = 1) ∧ μ t = (r : EReal) := fun t => by
    rcases hμ t with h | h
    · exact ⟨0, Or.inl rfl, by rw [h, EReal.coe_zero]⟩
    · exact ⟨1, Or.inr rfl, by rw [h, EReal.coe_one]⟩
  choose m hm01 hm using hm'
  have hm0 : ∀ t, 0 ≤ m t := fun t => by rcases hm01 t with h | h <;> rw [h] <;> norm_num
  -- the weight of (s, t) before masking: a positive real
  set x : Fin 1024 → ℝ := fun t => Real.exp (∑ k, A s k * A t k) with hx
  have hxpos : ∀ t, 0 < x t := fun t => Real.exp_pos _
  have hexp : ∀ t, Ideal.exp (score a s t) = (x t : EReal) := fun t => by
    have : score a s t = ((∑ k, A s k * A t k : ℝ) : EReal) := by
      rw [score, coe_sum_real]
      exact Finset.sum_congr rfl fun k _ => by rw [hA, hA, EReal.coe_mul]
    rw [this]; rfl
  -- the masked weights and the two guarded totals are reals, the totals positive
  have hcw : ∀ t, colW a μ s t = ((x t * m t : ℝ) : EReal) := fun t => by
    rw [colW, hexp, hm, EReal.coe_mul]
  have hbw : ∀ t, bothW a μ s t = ((x t * m s * m t : ℝ) : EReal) := fun t => by
    rw [bothW, hexp, hm, hm, EReal.coe_mul, EReal.coe_mul]
  have hcd : colDen a μ s = ((∑ u, x u * m u + e : ℝ) : EReal) := by
    rw [colDen, hε, EReal.coe_add, coe_sum_real]
    exact congrArg (· + (e : EReal)) (Finset.sum_congr rfl fun t _ => hcw t)
  have hbd : bothDen a μ s = ((∑ u, x u * m s * m u + e : ℝ) : EReal) := by
    rw [bothDen, hε, EReal.coe_add, coe_sum_real]
    exact congrArg (· + (e : EReal)) (Finset.sum_congr rfl fun t _ => hbw t)
  have hcd0 : (∑ u, x u * m u + e : ℝ) ≠ 0 :=
    ne_of_gt (add_pos_of_nonneg_of_pos
      (Finset.sum_nonneg fun u _ => mul_nonneg (hxpos u).le (hm0 u)) he)
  have hbd0 : (∑ u, x u * m s * m u + e : ℝ) ≠ 0 :=
    ne_of_gt (add_pos_of_nonneg_of_pos
      (Finset.sum_nonneg fun u _ => mul_nonneg (mul_nonneg (hxpos u).le (hm0 s)) (hm0 u)) he)
  -- both sides are coercions of reals; the equality is the one over the reals
  have hL : refRow a μ s d
      = ((∑ t, x t * m s * m t * (1 / (∑ u, x u * m s * m u + e)) * A t d : ℝ) : EReal) := by
    rw [refRow, coe_sum_real]
    refine Finset.sum_congr rfl fun t _ => ?_
    rw [hbw, hbd, Ideal.div_coe hbd0, hA, ← EReal.coe_mul, ← EReal.coe_mul]
  have hR : kerRow a μ s d
      = (((∑ t, x t * m t * A t d) * (m s * (1 / (∑ u, x u * m u + e))) : ℝ) : EReal) := by
    rw [kerRow, hcd, hm, Ideal.div_coe hcd0, ← EReal.coe_mul, EReal.coe_mul (∑ t, x t * m t * A t d), coe_sum_real]
    refine congrArg (· * _) (Finset.sum_congr rfl fun t _ => ?_)
    rw [hcw, hA, ← EReal.coe_mul]
  rw [hL, hR, real_law x m (fun t => A t d) (m s) e (hm01 s)]

end Cert.Attn

end
-- ==== Proof.PreFacts.lean ====
/-
  What the precondition says of the two inputs, element by element.
-/
import proofs.«406808_j67516885893461_3_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

open scoped BigOperators

namespace Cert.PreFacts

open Idealize.ShloMosaic Cert.Pre_finite_inputs

/-- A shape of rank zero has exactly one index. -/
private instance : Subsingleton S_.Idx := ⟨fun a b => funext fun d => d.elim0⟩

/-- Where the precondition holds, every feature is a real number and every mask word is zero or one. -/
theorem finite_and_binary [Cert.Pre_finite_inputs.Facts] (A : FVec Ideal S8x1024x768 .f32) (M : IVec S8x1024 32)
    (h : Cert.Pre_finite_inputs.fn (F := Ideal) A M = fun _ => 1#1) :
    (∀ i, ∃ r : ℝ, A i = (r : EReal)) ∧ (∀ j, M j = 0#32 ∨ M j = 1#32) := by
  have h0 := congrFun h ValueIdx.ix0
  dsimp only [Cert.Pre_finite_inputs.fn] at h0
  obtain ⟨hA, hM⟩ := IntOp.andi_eq_one.1 h0
  constructor
  · intro i
    have e := Host.reduce_andi_all _ _ _ _ _ hA i
    simp only [cmpf, Host.absf, Ideal.hostAbsf_def, Ideal.absf_def, Ideal.cmpf_def,
      StableHlo.Predicate.bcast_scalar _ Facts.h_S_, constant, Ideal.ofBits_def] at e
    -- the word 0x7F800000 denotes +infinity, so the comparison says |A i| < ⊤
    have htop : Ideal.ofBits .f32 2139095040#32 = (⊤ : EReal) := by simp [Ideal.ofBits, Ideal.ieee]
    have hlt : max (A i) (-A i) < (⊤ : EReal) := by
      rw [htop] at e
      simpa [Ideal.cmp, StableHlo.Predicate.ofBool_eq_one_iff] using e
    have h1 : A i ≠ (⊤ : EReal) := fun hx => by rw [hx] at hlt; simp at hlt
    have h2 : A i ≠ (⊥ : EReal) := fun hx => by rw [hx] at hlt; simp at hlt
    exact ⟨EReal.toReal (A i), (EReal.coe_toReal h1 h2).symm⟩
  · intro j
    have e := Host.reduce_andi_all _ _ _ _ _ hM j
    simp only [ori, cmpi, StableHlo.Predicate.bcast_scalar _ Facts.h_S_, constantI] at e
    rcases IntOp.ori_eq_one.1 e with e | e
    · exact Or.inl (StableHlo.Predicate.cmpi_eq_iff.1 e)
    · exact Or.inr (StableHlo.Predicate.cmpi_eq_iff.1 e)

/-- The word zero converts to the real zero. -/
theorem sitofp_zero : FloatOps.sitofp (F := Ideal) .f32 (0#32 : BitVec 32) = (0 : EReal) := by
  show (((0#32 : BitVec 32).toInt : ℝ) : EReal) = 0
  simp

/-- The word one converts to the real one. -/
theorem sitofp_one : FloatOps.sitofp (F := Ideal) .f32 (1#32 : BitVec 32) = (1 : EReal) := by
  show (((1#32 : BitVec 32).toInt : ℝ) : EReal) = 1
  have : (1#32 : BitVec 32).toInt = 1 := by decide
  rw [this]; simp

end Cert.PreFacts

end
-- ==== Proof.RefRead.lean ====
/-
  The reference program's result, read index by index, is the mask-both-then-normalize arrangement.
-/
import proofs.«406808_j67516885893461_3_alg».proof.Proof.Gen.ReferenceIdeal.Read
import proofs.«406808_j67516885893461_3_alg».proof.Proof.AttnSpec

noncomputable section

open scoped BigOperators

namespace Cert.ReferenceIdeal.RefValue

open Cert.ReferenceIdeal Cert.ReferenceIdeal.Gen Idealize.ShloMosaic Idealize.ShloMosaic.ValueIdx

/-- The doubly masked weight stage at position `(b, s, t)` is `bothW` of batch `b`. -/
private theorem v8_at (A : (⟨S8x1024x768, .f32⟩ : BufTy).Contents (Elt Ideal)) (M : (⟨S8x1024, .i32⟩ : BufTy).Contents (Elt Ideal))
    (b : Fin 8) (s t : Fin 1024) :
    Cert.ReferenceIdeal.Read.val_main_v8 (F := Ideal) A M (ix3 b s t)
      = Cert.Attn.bothW (Cert.Attn.rows A b) (Cert.Attn.maskRow M b) s t := by
  rw [Read.val_main_v8_apply, Read.val_main_v5_apply, Read.val_main_v1_apply, Read.val_main_v0_apply,
    Read.val_main_v4_apply, Read.val_main_v3_apply, Read.val_main_v2_apply, Read.val_main_v7_apply,
    Read.val_main_v6_apply, Read.val_main_v2_apply]
  have e1 : ∀ k : Fin 768, Read.lidx_main_v0 (ix3 b s t) k = ix3 b s k := fun k =>
    funext fun a => Fin.ext (by match a with | ⟨0, _⟩ => rfl | ⟨1, _⟩ => rfl | ⟨2, _⟩ => rfl)
  have e2 : ∀ k : Fin 768, Read.ridx_main_v0 (ix3 b s t) k = ix3 b t k := fun k =>
    funext fun a => Fin.ext (by match a with | ⟨0, _⟩ => rfl | ⟨1, _⟩ => rfl | ⟨2, _⟩ => rfl)
  have e3 : Read.idx_main_v3 (Read.idx_main_v4 (ix3 b s t)) = ix2 b s :=
    funext fun a => Fin.ext (by match a with | ⟨0, _⟩ => rfl | ⟨1, _⟩ => rfl)
  have e4 : Read.idx_main_v6 (Read.idx_main_v7 (ix3 b s t)) = ix2 b t :=
    funext fun a => Fin.ext (by match a with | ⟨0, _⟩ => rfl | ⟨1, _⟩ => rfl)
  simp only [e1, e2, e3, e4, Ideal.mulf_def, Ideal.hostUnary_exp_def]
  rfl

/-- The guarded total stage at position `(b, s, t)` is `bothDen` of batch `b` at row `s`, whatever `t` is:
    the sum's initial value is the zero word, which adds nothing. -/
private theorem v13_at (A : (⟨S8x1024x768, .f32⟩ : BufTy).Contents (Elt Ideal)) (M : (⟨S8x1024, .i32⟩ : BufTy).Contents (Elt Ideal))
    (b : Fin 8) (s t : Fin 1024) :
    Cert.ReferenceIdeal.Read.val_main_v13 (F := Ideal) A M (ix3 b s t)
      = Cert.Attn.bothDen (Cert.Attn.rows A b) (Cert.Attn.maskRow M b) s := by
  rw [Read.val_main_v13_apply, Read.val_main_v12_apply, Read.val_main_v10_apply, Read.val_main_v9_apply,
    Read.val_main_v11_apply, Read.val_main_cst_0_apply, Read.val_main_cst_apply]
  have e : ∀ t' : Fin 1024,
      Read.idx_main_v9 (Read.idx_main_v10 (Read.idx_main_v13 (ix3 b s t))) t' = ix3 b s t' := fun t' =>
    funext fun a => Fin.ext (by match a with | ⟨0, _⟩ => rfl | ⟨1, _⟩ => rfl | ⟨2, _⟩ => rfl)
  simp only [e, v8_at, Ideal.addf_def, Ideal.ofBits_def, Ideal.ofBits_zero_f32, zero_add]
  rfl

/-- The reference's last stage, at the ideal values, is `attnRef` of its two arguments. -/
theorem val_eq_attnRef (A : (⟨S8x1024x768, .f32⟩ : BufTy).Contents (Elt Ideal)) (M : (⟨S8x1024, .i32⟩ : BufTy).Contents (Elt Ideal)) :
    Cert.ReferenceIdeal.Read.val_main_v15 (F := Ideal) A M = Cert.Attn.attnRef A M := by
  funext i
  obtain ⟨b, s, d, rfl⟩ : ∃ (b : Fin 8) (s : Fin 1024) (d : Fin 768), i = ix3 b s d := ⟨i 0, i 1, i 2, eq_ix3 i⟩
  rw [Read.val_main_v15_apply]
  show _ = Cert.Attn.refRow (Cert.Attn.rows A b) (Cert.Attn.maskRow M b) s d
  unfold Cert.Attn.refRow
  refine Finset.sum_congr rfl fun t _ => ?_
  have el : Read.lidx_main_v15 (ix3 b s d) t = ix3 b s t :=
    funext fun a => Fin.ext (by match a with | ⟨0, _⟩ => rfl | ⟨1, _⟩ => rfl | ⟨2, _⟩ => rfl)
  have er : Read.ridx_main_v15 (ix3 b s d) t = ix3 b t d :=
    funext fun a => Fin.ext (by match a with | ⟨0, _⟩ => rfl | ⟨1, _⟩ => rfl | ⟨2, _⟩ => rfl)
  rw [el, er, Read.val_main_v14_apply, v8_at, v13_at, Ideal.hostDivf_def]
  rfl

end Cert.ReferenceIdeal.RefValue

end
-- ==== Proof.ChunkAt.lean ====
/-
  One 256-row chunk of the kernel's body, read at an index of its output block.
-/
import proofs.«406808_j67516885893461_3_alg».proof.Proof.Gen.KernelIdeal.Skeleton
import proofs.«406808_j67516885893461_3_alg».proof.Proof.AttnSpec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.ChunkAt

open Cert.KernelIdeal Cert.KernelIdeal.Gen Idealize.ShloMosaic Idealize.ShloMosaic.ValueIdx

/-! ## The scores' product: its operand indices, axis by axis -/

private theorem lhs_scores_0 (i : S256x1024.Idx) (q : dot_S256x768_S768x1024_S256x1024_1_0_0_1_n_n.contr.Idx) :
    (dot_S256x768_S768x1024_S256x1024_1_0_0_1_n_n.lhsIdx i q 0).val = (i 0).val := by
  unfold DotDims.lhsIdx
  rw [dif_neg (show ¬(0 : Fin S256x768.rank) ∈ dot_S256x768_S768x1024_S256x1024_1_0_0_1_n_n.lhsBatch by decide), dif_pos (show (0 : Fin S256x768.rank) ∈ dot_S256x768_S768x1024_S256x1024_1_0_0_1_n_n.lhsNonContracting by decide)]
  rfl
private theorem lhs_scores_1 (i : S256x1024.Idx) (q : dot_S256x768_S768x1024_S256x1024_1_0_0_1_n_n.contr.Idx) :
    (dot_S256x768_S768x1024_S256x1024_1_0_0_1_n_n.lhsIdx i q 1).val = (q ⟨0, by decide⟩).val :=
  dot_S256x768_S768x1024_S256x1024_1_0_0_1_n_n.lhsIdx_val_of_single rfl i q
private theorem rhs_scores_0 (i : S256x1024.Idx) (q : dot_S256x768_S768x1024_S256x1024_1_0_0_1_n_n.contr.Idx) :
    (dot_S256x768_S768x1024_S256x1024_1_0_0_1_n_n.rhsIdx i q 0).val = (q ⟨0, by decide⟩).val :=
  dot_S256x768_S768x1024_S256x1024_1_0_0_1_n_n.rhsIdx_val_of_single rfl i q
private theorem rhs_scores_1 (i : S256x1024.Idx) (q : dot_S256x768_S768x1024_S256x1024_1_0_0_1_n_n.contr.Idx) :
    (dot_S256x768_S768x1024_S256x1024_1_0_0_1_n_n.rhsIdx i q 1).val = (i 1).val := by
  unfold DotDims.rhsIdx
  rw [dif_neg (show ¬(1 : Fin S768x1024.rank) ∈ dot_S256x768_S768x1024_S256x1024_1_0_0_1_n_n.rhsBatch by decide), dif_pos (show (1 : Fin S768x1024.rank) ∈ dot_S256x768_S768x1024_S256x1024_1_0_0_1_n_n.rhsNonContracting by decide)]
  rfl

/-- The scores at (r, t): row r of the queries against column t of the transposed keys. -/
private theorem scores_apply (q : Vec Ideal S256x768 .bf16) (kt : Vec Ideal S768x1024 .bf16) (r : Fin 256) (t : Fin 1024) :
    (matmul (F := Ideal) (φ₁ := .bf16) (φ₂ := .bf16) dot_S256x768_S768x1024_S256x1024_1_0_0_1_n_n none q kt (constant S256x1024 .f32 0x00000000#32) (ix2 r t) : EReal)
      = ∑ k : Fin 768, (q (ix2 r k) : EReal) * (kt (ix2 k t) : EReal) := by
  refine (Ideal.matmul_constant_zero_apply (φ₁ := .bf16) (φ₂ := .bf16) dot_S256x768_S768x1024_S256x1024_1_0_0_1_n_n none q kt (ix2 r t)).trans ?_
  rw [← Equiv.sum_comp (ValueIdx.contrEquiv1 dot_S256x768_S768x1024_S256x1024_1_0_0_1_n_n 768 rfl rfl).symm]
  refine Finset.sum_congr rfl fun k _ => ?_
  have hk := ValueIdx.contrEquiv1_symm_val dot_S256x768_S768x1024_S256x1024_1_0_0_1_n_n 768 rfl rfl k
  have el : dot_S256x768_S768x1024_S256x1024_1_0_0_1_n_n.lhsIdx (ix2 r t) ((ValueIdx.contrEquiv1 dot_S256x768_S768x1024_S256x1024_1_0_0_1_n_n 768 rfl rfl).symm k) = ix2 r k := funext fun a => Fin.ext (by
    match a with
    | ⟨0, _⟩ => exact lhs_scores_0 _ _
    | ⟨1, _⟩ => exact (lhs_scores_1 _ _).trans hk)
  have er : dot_S256x768_S768x1024_S256x1024_1_0_0_1_n_n.rhsIdx (ix2 r t) ((ValueIdx.contrEquiv1 dot_S256x768_S768x1024_S256x1024_1_0_0_1_n_n 768 rfl rfl).symm k) = ix2 k t := funext fun a => Fin.ext (by
    match a with
    | ⟨0, _⟩ => exact (rhs_scores_0 _ _).trans hk
    | ⟨1, _⟩ => exact rhs_scores_1 _ _)
  rw [el, er]

/-! ## The averaging product: its operand indices, axis by axis -/

private theorem lhs_avg_0 (i : S256x768.Idx) (q : dot_S256x1024_S1024x768_S256x768_1_0_0_1_n_n.contr.Idx) :
    (dot_S256x1024_S1024x768_S256x768_1_0_0_1_n_n.lhsIdx i q 0).val = (i 0).val := by
  unfold DotDims.lhsIdx
  rw [dif_neg (show ¬(0 : Fin S256x1024.rank) ∈ dot_S256x1024_S1024x768_S256x768_1_0_0_1_n_n.lhsBatch by decide), dif_pos (show (0 : Fin S256x1024.rank) ∈ dot_S256x1024_S1024x768_S256x768_1_0_0_1_n_n.lhsNonContracting by decide)]
  rfl
private theorem lhs_avg_1 (i : S256x768.Idx) (q : dot_S256x1024_S1024x768_S256x768_1_0_0_1_n_n.contr.Idx) :
    (dot_S256x1024_S1024x768_S256x768_1_0_0_1_n_n.lhsIdx i q 1).val = (q ⟨0, by decide⟩).val :=
  dot_S256x1024_S1024x768_S256x768_1_0_0_1_n_n.lhsIdx_val_of_single rfl i q
private theorem rhs_avg_0 (i : S256x768.Idx) (q : dot_S256x1024_S1024x768_S256x768_1_0_0_1_n_n.contr.Idx) :
    (dot_S256x1024_S1024x768_S256x768_1_0_0_1_n_n.rhsIdx i q 0).val = (q ⟨0, by decide⟩).val :=
  dot_S256x1024_S1024x768_S256x768_1_0_0_1_n_n.rhsIdx_val_of_single rfl i q
private theorem rhs_avg_1 (i : S256x768.Idx) (q : dot_S256x1024_S1024x768_S256x768_1_0_0_1_n_n.contr.Idx) :
    (dot_S256x1024_S1024x768_S256x768_1_0_0_1_n_n.rhsIdx i q 1).val = (i 1).val := by
  unfold DotDims.rhsIdx
  rw [dif_neg (show ¬(1 : Fin S1024x768.rank) ∈ dot_S256x1024_S1024x768_S256x768_1_0_0_1_n_n.rhsBatch by decide), dif_pos (show (1 : Fin S1024x768.rank) ∈ dot_S256x1024_S1024x768_S256x768_1_0_0_1_n_n.rhsNonContracting by decide)]
  rfl

/-- The weighted average at (r, d): row r of the weights against column d of the values. -/
private theorem avg_apply (w : FVec Ideal S256x1024 .bf16) (v : Vec Ideal S1024x768 .bf16) (r : Fin 256) (d : Fin 768) :
    (matmul (F := Ideal) (φ₁ := .bf16) (φ₂ := .bf16) dot_S256x1024_S1024x768_S256x768_1_0_0_1_n_n none w v (constant S256x768 .f32 0x00000000#32) (ix2 r d) : EReal)
      = ∑ t : Fin 1024, (w (ix2 r t) : EReal) * (v (ix2 t d) : EReal) := by
  refine (Ideal.matmul_constant_zero_apply (φ₁ := .bf16) (φ₂ := .bf16) dot_S256x1024_S1024x768_S256x768_1_0_0_1_n_n none w v (ix2 r d)).trans ?_
  rw [← Equiv.sum_comp (ValueIdx.contrEquiv1 dot_S256x1024_S1024x768_S256x768_1_0_0_1_n_n 1024 rfl rfl).symm]
  refine Finset.sum_congr rfl fun k _ => ?_
  have hk := ValueIdx.contrEquiv1_symm_val dot_S256x1024_S1024x768_S256x768_1_0_0_1_n_n 1024 rfl rfl k
  have el : dot_S256x1024_S1024x768_S256x768_1_0_0_1_n_n.lhsIdx (ix2 r d) ((ValueIdx.contrEquiv1 dot_S256x1024_S1024x768_S256x768_1_0_0_1_n_n 1024 rfl rfl).symm k) = ix2 r k := funext fun a => Fin.ext (by
    match a with
    | ⟨0, _⟩ => exact lhs_avg_0 _ _
    | ⟨1, _⟩ => exact (lhs_avg_1 _ _).trans hk)
  have er : dot_S256x1024_S1024x768_S256x768_1_0_0_1_n_n.rhsIdx (ix2 r d) ((ValueIdx.contrEquiv1 dot_S256x1024_S1024x768_S256x768_1_0_0_1_n_n 1024 rfl rfl).symm k) = ix2 k d := funext fun a => Fin.ext (by
    match a with
    | ⟨0, _⟩ => exact (rhs_avg_0 _ _).trans hk
    | ⟨1, _⟩ => exact rhs_avg_1 _ _)
  rw [el, er]

/-! ## Layout operations at an index given by coordinates -/

/-- An `[a, 1]` column broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the `[a, 1]` column reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of a `[256, 1024]` array at row `r` is the sum of the row's entries. -/
private theorem laneSum_apply (x : FVec Ideal S256x1024 .f32) (r : Fin 256) :
    (multiReduction .add [1] S256 x 0x00000000#32 reduces_S256x1024_S256 (.inl rfl) rfl (ix1 r) : EReal)
      = ∑ t : Fin 1024, (x (ix2 r t) : EReal) := by
  refine (Ideal.multiReduction_add_single (φ := .f32) x 0x00000000#32 reduces_S256x1024_S256 (.inl rfl) rfl (ix1 r)).trans ?_
  refine Finset.sum_congr rfl fun t _ => ?_
  exact congrArg x (funext fun a => Fin.ext (by match a with | ⟨0, _⟩ => rfl | ⟨1, _⟩ => rfl))

/-! ## The chunk's values, outermost operation last -/

/-- The masked weight at (r, t): the exponential of the score times the column mask's entry. -/
private theorem weights_apply (mc : FVec Ideal S1x1024 .f32) (kt : Vec Ideal S768x1024 .bf16) (q : Vec Ideal S256x768 .bf16)
    (r : Fin 256) (t : Fin 1024) :
    (mulf (exp (matmul (F := Ideal) (φ₁ := .bf16) (φ₂ := .bf16) dot_S256x768_S768x1024_S256x1024_1_0_0_1_n_n none q kt (constant S256x1024 .f32 0x00000000#32)))
        (broadcastTo S256x1024 mc broadcasts_S1x1024_S256x1024) (ix2 r t) : EReal)
      = Ideal.exp (∑ k : Fin 768, (q (ix2 r k) : EReal) * (kt (ix2 k t) : EReal)) * (mc (ix2 (0 : Fin 1) t) : EReal) := by
  refine (mulf_apply _ _ _).trans ?_
  exact congrArg₂ (· * ·) (congrArg Ideal.exp (scores_apply q kt r t)) (broadcastTo_1b_ab_apply mc broadcasts_S1x1024_S256x1024 r t)

/-- The guarded total at row r: the lane sum of the masked weights plus ε. -/
private theorem total_apply (w : FVec Ideal S256x1024 .f32) (r : Fin 256) (u : Fin 1) :
    (addf (shapeCast S256x1 (multiReduction .add [1] S256 w 0x00000000#32 reduces_S256x1024_S256 (.inl rfl) rfl) shapeCasts_S256_S256x1)
        (broadcast S256x1 (Scalar.ofBits (F := Ideal) .f32 0x33D6BF95#32)) (ix2 r u) : EReal)
      = (∑ t : Fin 1024, (w (ix2 r t) : EReal)) + Cert.Attn.eps := by
  refine (addf_apply _ _ _).trans ?_
  refine congrArg₂ (· + ·) ?_ rfl
  refine (shapeCast_a_a1_apply _ shapeCasts_S256_S256x1 r u).trans ?_
  exact laneSum_apply w r

/-- Row `r`, feature `d` of a chunk's output: the chunk's queries `q` against the transposed keys `kt` give the scores,
    their exponentials masked by the column mask `mc` average the values `v`, and the row is scaled by its row-mask entry
    `mr` over the masked total plus `ε`. -/
theorem chunk_apply (mc : FVec Ideal S1x1024 .f32) (v : Vec Ideal S1024x768 .bf16) (kt : Vec Ideal S768x1024 .bf16)
    (q : Vec Ideal S256x768 .bf16) (mr : Vec Ideal S256x1 .f32) (r : Fin 256) (d : Fin 768) :
    (k0_pay8 (F := Ideal) mc v kt q mr (ix3 (0 : Fin 1) r d) : EReal)
      = (∑ t : Fin 1024, (Ideal.exp (∑ k : Fin 768, (q (ix2 r k) : EReal) * (kt (ix2 k t) : EReal)) * (mc (ix2 (0 : Fin 1) t) : EReal)) * (v (ix2 t d) : EReal))
        * Ideal.div (mr (ix2 r (0 : Fin 1)) : EReal)
            ((∑ t : Fin 1024, Ideal.exp (∑ k : Fin 768, (q (ix2 r k) : EReal) * (kt (ix2 k t) : EReal)) * (mc (ix2 (0 : Fin 1) t) : EReal)) + Cert.Attn.eps) := by
  unfold k0_pay8
  refine (shapeCast_ab_1ab_apply _ shapeCasts_S256x768_S1x256x768 (0 : Fin 1) r d).trans ?_
  refine (mulf_apply _ _ _).trans ?_
  refine congrArg₂ (· * ·) ?_ ?_
  · refine (avg_apply _ v r d).trans ?_
    refine Finset.sum_congr rfl fun t _ => ?_
    exact congrArg (· * (v (ix2 t d) : EReal)) ((truncf_apply (φ := .f32) (ψ := .bf16) _ bitsLt_bf16_f32 (ix2 r t)).trans (weights_apply mc kt q r t))
  · refine (broadcastTo_a1_ab_apply _ broadcasts_S256x1_S256x768 r d).trans ?_
    refine (divf_apply _ _ _).trans ?_
    refine congrArg (Ideal.div (mr (ix2 r (0 : Fin 1)) : EReal)) ?_
    refine (total_apply _ r (0 : Fin 1)).trans ?_
    exact congrArg (· + Cert.Attn.eps) (Finset.sum_congr rfl fun t _ => weights_apply mc kt q r t)

end Cert.KernelIdeal.ChunkAt

end
-- ==== Proof.Staged.lean ====
/-
  What the body stages before its chunks: the input block cast and kept, its transpose, and the mask as a row and as a column.
-/
import proofs.«406808_j67516885893461_3_alg».proof.Proof.Gen.KernelIdeal.Skeleton
import Idealize.ShloMosaic.Lib.Pipeline.Value
import Idealize.ShloMosaic.Lib.ValueIdx
import Idealize.ShloMosaic.Lib.ValueLayout

noncomputable section

open scoped BigOperators

namespace Cert.KernelIdeal.Staged

open Cert.KernelIdeal Cert.KernelIdeal.Gen Idealize.ShloMosaic Idealize.ShloMosaic.ValueIdx

variable {F : FTy → Type} [FloatOps F]

/-- The first chunk is the chunk function of its own query rows and row-mask entries. -/
theorem pay7_eq (v11 : Vec F S1x1x1024 .i32) (v18 : Vec F S1024x768 .bf16) (v19 : Vec F S768x1024 .bf16) (v23 : Vec F S256x768 .bf16) (v33 : Vec F S256x1 .f32) :
    k0_pay7 v18 (k0_pay5 v11 v19 v23) (k0_pay6 v11 v19 v23) v33 = k0_pay8 (k0_pay3 v11) v18 v19 v23 v33 := rfl

/-- The third chunk likewise. -/
theorem pay10_eq (v13 : FVec F S1x1024 .f32) (v18 : Vec F S1024x768 .bf16) (v19 : Vec F S768x1024 .bf16) (v69 : Vec F S256x768 .bf16) (v79 : Vec F S256x1 .f32) :
    k0_pay10 v13 v18 (k0_pay9 v19 v69) v79 = k0_pay8 v13 v18 v19 v69 v79 := rfl

/-- The fourth chunk likewise. -/
theorem pay11_eq (v13 : FVec F S1x1024 .f32) (v18 : Vec F S1024x768 .bf16) (v19 : Vec F S768x1024 .bf16) (v92 : Vec F S256x768 .bf16) (v102 : Vec F S256x1 .f32) :
    k0_pay11 v13 v18 v19 v92 v102 = k0_pay8 v13 v18 v19 v92 v102 := rfl

/-- The kept copy of the input block: the block with its unit batch axis dropped (the change of format is the identity). -/
theorem kept_apply (x0 : Vec Ideal S1x1024x768 .f32) (s : Fin 1024) (k : Fin 768) :
    (k0_pay1 (F := Ideal) x0 (ix2 s k) : EReal) = (x0 (ix3 (0 : Fin 1) s k) : EReal) := by
  unfold k0_pay1
  simp only [shapeCast_self]
  rw [truncf_apply]
  exact shapeCast_1ab_ab_apply x0 _ s k

/-- The transposed copy reads the kept copy with its coordinates exchanged. -/
theorem transposed_apply (v6 : Vec Ideal S1024x768 .bf16) (k : Fin 768) (t : Fin 1024) :
    (k0_pay2 (F := Ideal) v6 (ix2 k t) : EReal) = (v6 (ix2 t k) : EReal) := by
  unfold k0_pay2
  simp only [shapeCast_self]
  exact transpose_ix2_apply v6 _ k t

/-- The mask as a row of floats. -/
theorem maskRow_apply (x1 : Vec Ideal S1x1x1024 .i32) (t : Fin 1024) :
    (k0_pay3 (F := Ideal) x1 (ix2 (0 : Fin 1) t) : EReal) = FloatOps.sitofp (F := Ideal) .f32 (x1 (ix3 (0 : Fin 1) (0 : Fin 1) t)) := by
  unfold k0_pay3
  rw [sitofp_apply]
  exact congrArg _ (shapeCast_1ab_ab_apply x1 _ (0 : Fin 1) t)

/-- The mask as a column of floats: the row transposed. -/
theorem maskCol_apply (x1 : Vec Ideal S1x1x1024 .i32) (s : Fin 1024) :
    (k0_pay4 (F := Ideal) x1 (ix2 s (0 : Fin 1)) : EReal) = FloatOps.sitofp (F := Ideal) .f32 (x1 (ix3 (0 : Fin 1) (0 : Fin 1) s)) := by
  unfold k0_pay4
  simp only [shapeCast_self]
  rw [transpose_ix2_apply]
  exact maskRow_apply x1 s

end Cert.KernelIdeal.Staged

end
-- ==== Proof.KernelBlock.lean ====
/-
  What the kernel's body leaves in the output block, as one function of the two input blocks.

  At each grid point the body sees one batch: `x0`, the [1, 1024, 768] block of features, and `x1`, the [1, 1, 1024] block of
  mask words. It keeps a copy of the features and a transposed copy, the mask as a row and as a column, and then fills the
  output block in four slabs of 256 rows; slab `j` is the chunk function of rows `256 j … 256 j + 255` of the kept copy
  (the queries) and of the column mask, against all 1024 rows as keys and values. Row `s`, feature `d` of the block is
  therefore `Cert.Attn.kerRow` of the batch's matrix and mask at `(s, d)`, whichever slab `s` falls in.
-/
import proofs.«406808_j67516885893461_3_alg».proof.Proof.Gen.KernelIdeal.Frame
import proofs.«406808_j67516885893461_3_alg».proof.Proof.AttnSpec
import proofs.«406808_j67516885893461_3_alg».proof.Proof.ChunkAt
import proofs.«406808_j67516885893461_3_alg».proof.Proof.Staged
import Idealize.ShloMosaic.Lib.Pipeline.Value
import Idealize.ShloMosaic.Lib.Tactic

set_option maxRecDepth 16384

noncomputable section

open scoped BigOperators

namespace Cert.KernelIdeal.Block

open Cert.KernelIdeal Cert.KernelIdeal.Gen Idealize.ShloMosaic Idealize.ShloMosaic.TcCoe Idealize.ShloMosaic.ValueIdx Idealize.SL.Sem
open Cert.KernelIdeal.Staged Cert.KernelIdeal.ChunkAt

theorem hz3 : (![0, 0, 0] : Fin 3 → Nat) = fun _ => 0 := funext fun a => by fin_cases a <;> rfl
theorem hz2 : (![0, 0] : Fin 2 → Nat) = fun _ => 0 := funext fun a => by fin_cases a <;> rfl

/-- The batch's feature matrix, read off its block. -/
def feats (x0 : Vec Ideal S1x1024x768 .f32) : Fin 1024 → Fin 768 → EReal := fun s k => x0 (ix3 (0 : Fin 1) s k)

/-- The batch's mask as extended reals, read off its block of words. -/
def maskOf (x1 : Vec Ideal S1x1x1024 .i32) : Fin 1024 → EReal :=
  fun t => FloatOps.sitofp (F := Ideal) .f32 (x1 (ix3 (0 : Fin 1) (0 : Fin 1) t))

/-- The output block as one function of the input blocks. -/
def blockFn (x0 : Vec Ideal S1x1024x768 .f32) (x1 : Vec Ideal S1x1x1024 .i32) : S1x1024x768.Idx → EReal :=
  fun y => Cert.Attn.kerRow (feats x0) (maskOf x1) (y 1) (y 2)

/-- A load of a box of a buffer that one whole-buffer store filled reads the store's value at the box's indices. -/
theorem slab_apply {sig : RefSig} {κ : Kind} {sp : Space} {S : Shape} {e : EltTy} (v : View sig κ sp S e)
    {off0 : Fin S.rank → Nat} (h0 : off0 = fun _ => 0) (inb0 : ∀ a, off0 a + S.size a ≤ S.size a)
    (w : S.Idx → Elt Ideal e) (B : LoadRect S) (j : B.shape.Idx) :
    v.readCov [(⟨Rect.unit off0 S.size inb0, w⟩ : View.Piece (Elt Ideal) S e)] B j = w (B.idx j) := by
  rw [View.readCov_eq_canon', View.canon_unit_zero h0]

/-- One slab: a chunk whose keys, values and column mask are the whole batch's and whose queries and row-mask entries are
    rows `off … off + 255` is `kerRow` at those rows. -/
theorem chunk_eq_kerRow (x0 : Vec Ideal S1x1024x768 .f32) (x1 : Vec Ideal S1x1x1024 .i32) (off : Nat) (hoff : off + 256 ≤ 1024)
    (mc : FVec Ideal S1x1024 .f32) (v : Vec Ideal S1024x768 .bf16) (kt : Vec Ideal S768x1024 .bf16)
    (q : Vec Ideal S256x768 .bf16) (mr : Vec Ideal S256x1 .f32)
    (hmc : ∀ t : Fin 1024, (mc (ix2 (0 : Fin 1) t) : EReal) = maskOf x1 t)
    (hv : ∀ (t : Fin 1024) (d : Fin 768), (v (ix2 t d) : EReal) = feats x0 t d)
    (hkt : ∀ (k : Fin 768) (t : Fin 1024), (kt (ix2 k t) : EReal) = feats x0 t k)
    (hq : ∀ (r : Fin 256) (k : Fin 768), (q (ix2 r k) : EReal) = feats x0 ⟨off + r.val, by have := r.isLt; omega⟩ k)
    (hmr : ∀ r : Fin 256, (mr (ix2 r (0 : Fin 1)) : EReal) = maskOf x1 ⟨off + r.val, by have := r.isLt; omega⟩)
    (r : Fin 256) (d : Fin 768) :
    (k0_pay8 (F := Ideal) mc v kt q mr (ix3 (0 : Fin 1) r d) : EReal)
      = Cert.Attn.kerRow (feats x0) (maskOf x1) ⟨off + r.val, by have := r.isLt; omega⟩ d := by
  rw [chunk_apply]
  unfold Cert.Attn.kerRow Cert.Attn.colDen Cert.Attn.colW Cert.Attn.score
  simp only [hmc, hv, hkt, hq, hmr]

/-- Rows `off … off + 255` of a [1024 × n] buffer, as a load's box places them. -/
theorem rowsBox_idx {n w : Nat} (off : Nat) (inb : ∀ a, (![off, 0] : Fin 2 → Nat) a + (![256, w] : Fin 2 → Nat) a ≤ (⟨2, ![1024, n]⟩ : Shape).size a)
    (hoff : off + 256 ≤ 1024) (hw : w ≤ n) (r : Fin 256) (k : Fin w) :
    (Rect.unit (s := (⟨2, ![1024, n]⟩ : Shape)) ![off, 0] ![256, w] inb).toLoadRect.idx (ix2 r k)
      = ix2 (⟨off + r.val, by have := r.isLt; omega⟩ : Fin 1024) (⟨k.val, by have := k.isLt; omega⟩ : Fin n) := by
  funext a
  apply Fin.ext
  match a with
  | ⟨0, _⟩ => show off + 1 * r.val = off + r.val; omega
  | ⟨1, _⟩ => show 0 + 1 * k.val = k.val; omega

/-- The queries of a slab: rows `off … off + 255` of the kept copy, loaded back, are those rows of the batch's matrix. -/
theorem qrows_apply (x0 : Vec Ideal S1x1024x768 .f32) (arg4 : Memref sig .tc .vmem S1024x768 .bf16)
    (off : Nat) (hoff : off + 256 ≤ 1024)
    (inb4 : ∀ a, (![off, 0] : Fin 2 → Nat) a + (![256, 768] : Fin 2 → Nat) a ≤ S1024x768.size a)
    (i4 : ∀ a, (![0, 0] : Fin 2 → Nat) a + S1024x768.size a ≤ S1024x768.size a) (r : Fin 256) (k : Fin 768) :
    (arg4.view.readCov [(⟨Rect.unit ![0, 0] S1024x768.size i4, k0_pay1 x0⟩ : View.Piece (Elt Ideal) S1024x768 .bf16)]
        (Rect.unit (s := S1024x768) ![off, 0] ![256, 768] inb4).toLoadRect (ix2 r k) : EReal)
      = feats x0 ⟨off + r.val, by have := r.isLt; omega⟩ k := by
  rw [View.readCov_eq_canon', View.canon_unit_zero hz2]
  show (k0_pay1 (F := Ideal) x0 ((Rect.unit (s := (⟨2, ![1024, 768]⟩ : Shape)) ![off, 0] ![256, 768] inb4).toLoadRect.idx (ix2 r k)) : EReal) = _
  rw [rowsBox_idx off inb4 hoff (le_refl _) r k]
  exact kept_apply x0 _ _

/-- The row-mask entries of a slab: rows `off … off + 255` of the mask column, loaded back. -/
theorem mrows_apply (x1 : Vec Ideal S1x1x1024 .i32) (arg6 : Memref sig .tc .vmem S1024x1 .f32)
    (off : Nat) (hoff : off + 256 ≤ 1024)
    (inb6 : ∀ a, (![off, 0] : Fin 2 → Nat) a + (![256, 1] : Fin 2 → Nat) a ≤ S1024x1.size a)
    (i6 : ∀ a, (![0, 0] : Fin 2 → Nat) a + S1024x1.size a ≤ S1024x1.size a) (r : Fin 256) :
    (arg6.view.readCov [(⟨Rect.unit ![0, 0] S1024x1.size i6, k0_pay4 x1⟩ : View.Piece (Elt Ideal) S1024x1 .f32)]
        (Rect.unit (s := S1024x1) ![off, 0] ![256, 1] inb6).toLoadRect (ix2 r (0 : Fin 1)) : EReal)
      = maskOf x1 ⟨off + r.val, by have := r.isLt; omega⟩ := by
  rw [View.readCov_eq_canon', View.canon_unit_zero hz2]
  show (k0_pay4 (F := Ideal) x1 ((Rect.unit (s := (⟨2, ![1024, 1]⟩ : Shape)) ![off, 0] ![256, 1] inb6).toLoadRect.idx (ix2 r (0 : Fin 1))) : EReal) = _
  rw [rowsBox_idx off inb6 hoff (le_refl _) r (0 : Fin 1)]
  exact maskCol_apply x1 _

/-- One stored slab agrees with the block function: the slab at rows `off … off + 255` holds the chunk whose queries and
    row-mask entries were loaded from those rows of the kept copies. -/
theorem slab_piece (x0 : Vec Ideal S1x1024x768 .f32) (x1 : Vec Ideal S1x1x1024 .i32)
    (arg4 : Memref sig .tc .vmem S1024x768 .bf16) (arg6 : Memref sig .tc .vmem S1024x1 .f32)
    (off : Nat) (hoff : off + 256 ≤ 1024)
    (inb3 : ∀ a, (![0, off, 0] : Fin 3 → Nat) a + (![1, 256, 768] : Fin 3 → Nat) a ≤ S1x1024x768.size a)
    (inb4 : ∀ a, (![off, 0] : Fin 2 → Nat) a + (![256, 768] : Fin 2 → Nat) a ≤ S1024x768.size a)
    (inb6 : ∀ a, (![off, 0] : Fin 2 → Nat) a + (![256, 1] : Fin 2 → Nat) a ≤ S1024x1.size a)
    (i4 : ∀ a, (![0, 0] : Fin 2 → Nat) a + S1024x768.size a ≤ S1024x768.size a)
    (i6 : ∀ a, (![0, 0] : Fin 2 → Nat) a + S1024x1.size a ≤ S1024x1.size a)
    (r : Fin 256) (d : Fin 768) :
    (k0_pay8 (F := Ideal) (k0_pay3 x1) (k0_pay1 x0) (k0_pay2 (k0_pay1 x0))
        (arg4.view.readCov [(⟨Rect.unit ![0, 0] S1024x768.size i4, k0_pay1 x0⟩ : View.Piece (Elt Ideal) S1024x768 .bf16)]
          (Rect.unit (s := S1024x768) ![off, 0] ![256, 768] inb4).toLoadRect)
        (arg6.view.readCov [(⟨Rect.unit ![0, 0] S1024x1.size i6, k0_pay4 x1⟩ : View.Piece (Elt Ideal) S1024x1 .f32)]
          (Rect.unit (s := S1024x1) ![off, 0] ![256, 1] inb6).toLoadRect) (ix3 (0 : Fin 1) r d) : EReal)
      = blockFn x0 x1 ((Rect.unit (s := S1x1024x768) ![0, off, 0] ![1, 256, 768] inb3).emb (ix3 (0 : Fin 1) r d)) := by
  refine (chunk_eq_kerRow x0 x1 off hoff (k0_pay3 x1) (k0_pay1 x0) (k0_pay2 (k0_pay1 x0)) _ _
    (fun t => maskRow_apply x1 t) (fun t d => kept_apply x0 t d)
    (fun k t => (transposed_apply _ k t).trans (kept_apply x0 t k))
    (qrows_apply x0 arg4 off hoff inb4 i4) (mrows_apply x1 arg6 off hoff inb6 i6) r d).trans ?_
  unfold blockFn
  congr 1
  · apply Fin.ext
    show off + r.val = off + 1 * r.val
    omega
  · apply Fin.ext
    show d.val = 0 + 1 * d.val
    omega

/-- What the body leaves in the output block: row `s`, feature `d` is `kerRow` of the batch at `(s, d)`. Each of the four
    slabs the body stores is the chunk of its 256 rows, and the slabs tile the block. -/
theorem out_eq (c : Dev nD) (i : grid0.Coords) (arg1 : Memref sig .tc .vmem S1x1024x768 .f32) (harg1 : arg1.IsWhole) (arg2 : Memref sig .tc .vmem S1x1x1024 .i32) (harg2 : arg2.IsWhole) (arg3 : Memref sig .tc .vmem S1x1024x768 .f32) (harg3 : arg3.IsWhole) (arg4 : Memref sig .tc .vmem S1024x768 .bf16) (harg4 : arg4.IsWhole) (arg5 : Memref sig .tc .vmem S768x1024 .bf16) (harg5 : arg5.IsWhole) (arg6 : Memref sig .tc .vmem S1024x1 .f32) (harg6 : arg6.IsWhole)
    (x0 : Vec Ideal S1x1024x768 .f32) (x1 : Vec Ideal S1x1x1024 .i32) :
    out0_A_2 (F := Ideal) c i arg1 harg1 arg2 harg2 arg3 harg3 arg4 harg4 arg5 harg5 arg6 harg6 x0 x1 = blockFn x0 x1 := by
  funext y
  have hc := cover0_A_2 (F := Ideal) c i arg1 harg1 arg2 harg2 arg3 harg3 arg4 harg4 arg5 harg5 arg6 harg6 x0 x1 y
  unfold out0_A_2
  rw [View.read_writes_eq_canon _ _ _ (cover0_A_2 c i arg1 harg1 arg2 harg2 arg3 harg3 arg4 harg4 arg5 harg5 arg6 harg6 x0 x1)]
  revert hc
  unfold kernelRun0_A
  dsimp only
  sl_unfold_words
  simp only [View.readAt_eq_ld, harg1.read_unread, harg2.read_unread, View.ld_unit_zero (S := S1x1024x768) hz3,
    View.ld_unit_zero (S := S1x1x1024) hz3, View.readCov_unit_zero (S := S1024x768) _ hz2,
    View.readCov_unit_zero (S := S768x1024) _ hz2, pay7_eq, pay10_eq, pay11_eq]
  intro hc
  refine View.canon_apply_of_pieces (blockFn x0 x1) _ ?_ y hc
  intro p hp x
  simp only [List.mem_cons, List.not_mem_nil, or_false] at hp
  rcases hp with rfl | rfl | rfl | rfl
  all_goals
    obtain ⟨z, r, d, rfl⟩ : ∃ (z : Fin 1) (r : Fin 256) (d : Fin 768), x = ix3 z r d := ⟨x 0, x 1, x 2, eq_ix3 x⟩
    obtain rfl : z = 0 := Subsingleton.elim _ _
  · exact slab_piece x0 x1 arg4 arg6 768 (by omega) (by decide) (by decide) (by decide) (by decide) (by decide) r d
  · exact slab_piece x0 x1 arg4 arg6 512 (by omega) (by decide) (by decide) (by decide) (by decide) (by decide) r d
  · exact slab_piece x0 x1 arg4 arg6 256 (by omega) (by decide) (by decide) (by decide) (by decide) (by decide) r d
  · exact slab_piece x0 x1 arg4 arg6 0 (by omega) (by decide) (by decide) (by decide) (by decide) (by decide) r d

end Cert.KernelIdeal.Block

end
-- ==== Proof.KernelArray.lean ====
/-
  The kernel's result array.

  The grid has one point per batch: point `t` stages batch `t` of the features (a [1, 1024, 768] block) and batch `t` of the
  mask, which the host laid out as [8, 1, 1024] beforehand, runs the body, and writes the [1, 1024, 768] output block back
  to batch `t` of the result. So the result array, index by index, is `Cert.Attn.attn` of the two argument arrays:
  what the body leaves in the block is `kerRow` of the staged batch (the block module), the staged batch is batch `t` of
  the arguments (the index maps), and the eight blocks tile the array.
-/
import proofs.«406808_j67516885893461_3_alg».proof.Proof.Gen.KernelIdeal.Value
import proofs.«406808_j67516885893461_3_alg».proof.Proof.AttnSpec
import proofs.«406808_j67516885893461_3_alg».proof.Proof.KernelBlock
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.Arr

open Cert.KernelIdeal Cert.KernelIdeal.Gen Cert.KernelIdeal.Value Cert.KernelIdeal.Block
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array: masked attention of the two argument arrays, in the kernel's arrangement. -/
abbrev result (c : Dev nD) : Buf (Elt Ideal) ((c : Thread nD τ).loc main_v1) :=
  Cert.Attn.attn (m ((c : Thread nD τ).loc main_arg0)) (m ((c : Thread nD τ).loc main_arg1))

/-- The printed index maps, decided over the eight grid points: every window's block index is (the point, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem N8 : cfg0.N = 8 := N_0

/-- The batch a grid point works on. -/
abbrev batchOf (t : Fin cfg0.N) : Fin 8 := ⟨t.val, lt_of_lt_of_eq t.isLt N8⟩

/-- The mask as the region finds it: the host's [8, 1, 1024] layout of the [8, 1024] argument. -/
theorem V_mask (c : Dev nD) : (V m c main_v0 : S8x1x1024.Idx → BitVec 32)
    = broadcastInDim S8x1x1024 ![0, 2] bcast_S8x1024_S8x1x1024_0_2 (m ((c : Thread nD τ).loc main_arg1)) := by
  dsimp only [Gen.V, Gen.hostOps0]; after_results

/-- The features staged at point `t` are batch `t` of the argument. -/
theorem feats_iblk (c : Dev nD) (t : Fin cfg0.N) :
    feats (iblk m c 0 t) = Cert.Attn.rows (m ((c : Thread nD τ).loc main_arg0)) (batchOf t) := by
  obtain ⟨e0, e1, e2, -⟩ := idx_facts t
  funext s k
  unfold feats iblk Cert.Attn.rows
  rw [View.read_apply]
  show V m c main_arg0 (((cfg0.win 0).blk t).view.emb (ix3 (0 : Fin 1) s k)) = _
  rw [V_main_arg0]
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 1024 + 1 * s.val = s.val; omega
  | ⟨2, _⟩ => show win0_0.index t (2 : Fin 3) * 768 + 1 * k.val = k.val; omega

/-- The mask words staged at point `t` are batch `t` of the mask argument. -/
theorem maskOf_iblk (c : Dev nD) (t : Fin cfg0.N) :
    maskOf (iblk m c 1 t) = Cert.Attn.maskRow (m ((c : Thread nD τ).loc main_arg1)) (batchOf t) := by
  obtain ⟨-, -, -, e0, e1, e2, -⟩ := idx_facts t
  funext s
  unfold maskOf iblk Cert.Attn.maskRow
  refine congrArg (FloatOps.sitofp (F := Ideal) .f32) ?_
  rw [View.read_apply]
  show V m c main_v0 (((cfg0.win 1).blk t).view.emb (ix3 (0 : Fin 1) (0 : Fin 1) s)) = _
  rw [V_mask]
  refine broadcastInDim_apply _ bcast_S8x1024_S8x1x1024_0_2 _ _ (ix2 (batchOf t) s) (fun a => ?_)
  match a with
  | ⟨0, _⟩ => show t.val = if (8 : Nat) = 1 then 0 else win0_1.index t (0 : Fin 3) * 1 + 1 * 0; rw [if_neg (by decide)]; omega
  | ⟨1, _⟩ => show s.val = if (1024 : Nat) = 1 then 0 else win0_1.index t (2 : Fin 3) * 1024 + 1 * s.val; rw [if_neg (by decide)]; omega

/-- WHAT POINT `t` WRITES BACK is block `t` of the result. -/
theorem flushed_eq (c : Dev nD) (t : Fin cfg0.N) :
    (dats m 0 c).flushed 2 t = ((cfg0.win 2).blk t).view.read (Elt Ideal) (result m c) := by
  obtain ⟨-, -, -, -, -, -, e0, e1, e2⟩ := idx_facts t
  rw [flushed2_A, out_eq]
  funext j
  rw [View.read_apply]
  show blockFn (iblk m c 0 t) (iblk m c 1 t) ((cfg0.win 2).xinj (grid0.coords t) j) = result m c (((cfg0.win 2).blk t).view.emb j)
  unfold blockFn
  rw [feats_iblk, maskOf_iblk]
  show _ = Cert.Attn.kerRow _ _ _ _
  have hb : (((cfg0.win 2).blk t).view.emb j) 0 = batchOf t := Fin.ext (by
    show win0_2.index t (0 : Fin 3) * 1 + 1 * (j 0).val = t.val
    have : (j 0).val < 1 := (j 0).isLt
    omega)
  have h1 : (((cfg0.win 2).blk t).view.emb j) 1 = ((cfg0.win 2).xinj (grid0.coords t) j) 1 := Fin.ext (by
    show win0_2.index t (1 : Fin 3) * 1024 + 1 * (j 1).val = (j 1).val; omega)
  have h2 : (((cfg0.win 2).blk t).view.emb j) 2 = ((cfg0.win 2).xinj (grid0.coords t) j) 2 := Fin.ext (by
    show win0_2.index t (2 : Fin 3) * 768 + 1 * (j 2).val = (j 2).val; omega)
  rw [hb, h1, h2]

/-- An index of the array is in point `t`'s block iff each coordinate is in the block's range on its axis. -/
theorem mem_blk (t : Fin cfg0.N) (i : S8x1024x768.Idx) :
    i ∈ ((cfg0.win 2).blk t).view.set ↔ ∀ a : Fin 3, win0_2.index t a * S1x1024x768.size a ≤ (i a).val ∧ (i a).val < win0_2.index t a * S1x1024x768.size a + S1x1024x768.size a := by
  show i ∈ ((View.whole main_v1).slice (win0_2.rect t)).set ↔ _
  rw [View.set_slice_whole, Rect.mem_set_unit]
  exact Iff.rfl

/-- Every index lies in the block of the point its batch coordinate names. -/
theorem cover (i : S8x1024x768.Idx) :
    ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 768 := (i 2).isLt
  refine ⟨⟨(i 0).val, lt_of_lt_of_eq h0 N8.symm⟩, flush0_2 _, ?_⟩
  obtain ⟨-, -, -, -, -, -, e0, e1, e2⟩ := idx_facts ⟨(i 0).val, lt_of_lt_of_eq h0 N8.symm⟩
  rw [mem_blk]
  intro a
  match a with
  | ⟨0, _⟩ => show win0_2.index _ (0 : Fin 3) * 1 ≤ (i 0).val ∧ (i 0).val < win0_2.index _ (0 : Fin 3) * 1 + 1; rw [e0]; dsimp only; omega
  | ⟨1, _⟩ => show win0_2.index _ (1 : Fin 3) * 1024 ≤ (i 1).val ∧ (i 1).val < win0_2.index _ (1 : Fin 3) * 1024 + 1024; rw [e1]; omega
  | ⟨2, _⟩ => show win0_2.index _ (2 : Fin 3) * 768 ≤ (i 2).val ∧ (i 2).val < win0_2.index _ (2 : Fin 3) * 768 + 768; rw [e2]; omega

/-- So the result array ends holding the masked attention of the arguments. -/
theorem final (c : Dev nD) : (dats m 0 c).arrAt 2 cfg0.N = result m c :=
  (dats m 0 c).arrAt_eq_of_cover 2 (result m c) (fun t _ => flushed_eq m c t) cover

/-- The run, read: the result array at `attn` of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Arr

end
-- ==== Proof.lean ====
/-
  Masked, unscaled dot-product self-attention: a kernel that works one batch per grid point against the plain reference.

  Per batch, with `a` the [1024 × 768] features and `μ` the mask, the reference forms the weights
  `exp (a aᵀ)`, masks them by `μ s` and by `μ t`, divides each by its row's masked total plus `ε`, and averages the rows
  of `a` with the quotients. The kernel keeps the column mask only, averages the rows of `a` with the un-normalized
  masked weights, and scales row `s` once by `μ s / (column-masked total + ε)`; it does so in four slabs of 256 rows
  against a transposed copy of `a`.

  The two agree exactly when the mask is a mask — every word zero or one — and the features are finite: for `μ s = 1` the
  row mask is the factor one and the division distributes over the finite sum; for `μ s = 0` both rows are zero. (For a
  mask word 2 the reference divides by `2 D + ε` where the kernel divides by `D + ε`.) The precondition says exactly
  that, and the proof uses both halves of it.

  Modules: AttnSpec (the two arrangements as functions on the extended reals), AttnLaw (they agree on a zero-one mask),
  PreFacts (the precondition read element by element), RefRead (the reference's stages are the first arrangement),
  Staged and ChunkAt (the body's staged copies and one slab, read at an index), KernelBlock (the block the body leaves),
  KernelArray (the eight blocks tile the result). The frames and the two runs are the generated modules'.
-/
import proofs.«406808_j67516885893461_3_alg».proof.Defs
import proofs.«406808_j67516885893461_3_alg».proof.Proof.Gen.Kernel
import proofs.«406808_j67516885893461_3_alg».proof.Proof.Gen.Kernel.Frame
import proofs.«406808_j67516885893461_3_alg».proof.Proof.Gen.KernelIdeal
import proofs.«406808_j67516885893461_3_alg».proof.Proof.Gen.KernelIdeal.Frame
import proofs.«406808_j67516885893461_3_alg».proof.Proof.Gen.KernelIdeal.Value
import proofs.«406808_j67516885893461_3_alg».proof.Proof.Gen.ReferenceIdeal
import proofs.«406808_j67516885893461_3_alg».proof.Proof.Gen.ReferenceIdeal.Run
import proofs.«406808_j67516885893461_3_alg».proof.Proof.Gen.ReferenceIdeal.Read
import proofs.«406808_j67516885893461_3_alg».proof.Proof.Gen.Pre_finite_inputs
import proofs.«406808_j67516885893461_3_alg».proof.Proof.AttnSpec
import proofs.«406808_j67516885893461_3_alg».proof.Proof.AttnLaw
import proofs.«406808_j67516885893461_3_alg».proof.Proof.PreFacts
import proofs.«406808_j67516885893461_3_alg».proof.Proof.RefRead
import proofs.«406808_j67516885893461_3_alg».proof.Proof.KernelArray
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On a zero-one mask and finite features the two arrangements of masked attention are one array. -/
theorem attnRef_eq_attn (A : Cert.Attn.SA.Idx → EReal) (M : Cert.Attn.SM.Idx → BitVec 32)
    (hA : ∀ i, ∃ r : ℝ, A i = (r : EReal)) (hM : ∀ j, M j = 0#32 ∨ M j = 1#32) :
    Cert.Attn.attnRef A M = Cert.Attn.attn A M := by
  funext i
  refine Cert.Attn.refRow_eq_kerRow _ _ (fun s k => hA _) (fun t => ?_) (i 1) (i 2)
  unfold Cert.Attn.maskRow
  rcases hM (ix2 (i 0) t) with h | h
  · left; rw [h]; exact Cert.PreFacts.sitofp_zero
  · right; rw [h]; exact Cert.PreFacts.sitofp_one

/-- The kernel's result array ends at `attn` of its arguments, the reference's at `attnRef` of arguments that agree;
    under the precondition these are equal. -/
theorem algebraic : Cert.algebraic_KernelIdeal_ReferenceIdeal := by
  intro m ρ m' ρ' hpre hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.val_eq_attnRef, (hagree c).1, (hagree c).2]
  obtain ⟨hfin, hbin⟩ := Cert.PreFacts.finite_and_binary _ _ (hpre c)
  exact attnRef_eq_attn _ _ hfin hbin

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
